-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x768 : Shape := ⟨2, ![8192, 768]⟩
abbrev S_ : Shape := ⟨0, ![]⟩

class Facts : Prop where
  bcast_S_S8192x768 : S_.BroadcastsInDim S8192x768 (![] : Fin 0 → Fin S8192x768.rank)
  reducesTo_S8192x768_S_d0_1 : S8192x768.ReducesTo [0, 1] S_
  h_S_ : 0 < S_.numel

variable [Facts]

def fn {F : FTy → Type} [FloatOps F] (main_arg0 : FVec F S8192x768 .f32) (main_arg1 : FVec F S8192x768 .f32) : IVec S_ 1 :=
  let main_v0 : FVec F S8192x768 .f32 := Host.absf main_arg0
  let main_cst : FVec F S_ .f32 := constant S_ .f32 0x7F800000#32
  let main_v1 : FVec F S8192x768 .f32 := broadcastInDim S8192x768 ![] bcast_S_S8192x768 main_cst
  let main_v2 : IVec S8192x768 1 := cmpf .olt main_v0 main_v1
  let main_c : IVec S_ 1 := constantI S_ 1 1#1
  let main_v3 : IVec S_ 1 := (fun x v => Host.reduce IntOp.andi x v reducesTo_S8192x768_S_d0_1 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  main_v8
-- ==== Kernel.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x768 : Shape := ⟨2, ![1024, 768]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x768, .bf16⟩
  | .hbm, ⟨11, _⟩ => ⟨S8192x768, .bf16⟩
  | .hbm, ⟨12, _⟩ => ⟨S8192x8192, .f32⟩
  | .local _ .vmem, ⟨0, _⟩ => ⟨S1024x768, .bf16⟩
  | .local _ .vmem, ⟨1, _⟩ => ⟨S1024x768, .bf16⟩
  | .local _ .vmem, ⟨2, _⟩ => ⟨S1024x768, .bf16⟩
  | .local _ .vmem, ⟨3, _⟩ => ⟨S1024x768, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | _, _ => ⟨S8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x768_S1024x768_S1024x1024_1_1_0_0_n_n_wf : DotDims.WF S1024x768 S1024x768 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S8192x768.size a
  hwx0_0 : ∀ i : grid0.Coords, EltTy.bits .bf16 = 32 ∨ (Rect.block (s := S8192x768) S1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .bf16 = 32 ∨ (Rect.block (s := S8192x768) S1024x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x768_S1024x768_S1024x1024_1_1_0_0_n_n : DotDims S1024x768 S1024x768 S1024x1024 where
  lhsContracting := [1]
  rhsContracting := [1]
  lhsNonContracting := [0]
  rhsNonContracting := [0]
  lhsBatch := []
  rhsBatch := []
  wf := dot_S1024x768_S1024x768_S1024x1024_1_1_0_0_n_n_wf

abbrev win0_0 : Pipeline.Window sig grid0 :=
  Pipeline.Window.ofSpec (Memref.whole main_call0_v6) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v7) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x768 : Shape := ⟨2, ![8192, 768]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 21
  | .vmem => 0
  | .smem => 0
  | _ => 0

abbrev bufTy : (tb : Table) → Fin (tcTables nBuf tb) → BufTy
  | .hbm, ⟨0, _⟩ => ⟨S8192x768, .f32⟩
  | .hbm, ⟨1, _⟩ => ⟨S8192x768, .f32⟩
  | .hbm, ⟨2, _⟩ => ⟨S8192x768, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x768, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | _, _ => ⟨S8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S8192x768_S8192_d1 : S8192x768.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x768_S8192x768_S8192x8192_1_1_0_0_n_n_wf : DotDims.WF S8192x768 S8192x768 S8192x8192 [1] [1] [0] [0] [] []

variable [Facts₀]

def dot_S8192x768_S8192x768_S8192x8192_1_1_0_0_n_n : DotDims S8192x768 S8192x768 S8192x8192 where
  lhsContracting := [1]
  rhsContracting := [1]
  lhsNonContracting := [0]
  rhsNonContracting := [0]
  lhsBatch := []
  rhsBatch := []
  wf := dot_S8192x768_S8192x768_S8192x8192_1_1_0_0_n_n_wf

class Facts : Prop extends Facts₀ where

variable [Facts]
-- ==== Proof.SqDist.lean ====
/-
  The squared Euclidean distance between every row of one matrix and every row of another, written the way both programs
  compute it: for rows p of x and q of y (each of 768 entries, 8192 rows each)

      d(p, q) = max( (|x_p|² + |y_q|²) − 2 · ⟨x_p, y_q⟩ , 0 ),

  with |x_p|² the sum of the squared entries of row p (started from the zero word, as a host sum is), ⟨x_p, y_q⟩ the sum
  of the products of the two rows' entries, and the constants 2 and 0 kept as their binary words. Everything is read on
  the extended reals; no algebraic law is used below, only this one arrangement of the operations.
-/
import Idealize.ShloMosaic.PureOps.Ideal
import Idealize.ShloMosaic.Lib.ValueIdx

noncomputable section

namespace Cert.SqDist

open Idealize.ShloMosaic Idealize.ShloMosaic.ValueIdx

/-- The shape of either argument: 8192 rows of 768 entries. -/
abbrev Rows : Shape := ⟨2, ![8192, 768]⟩
/-- The shape of the result: one entry per pair of rows. -/
abbrev Pairs : Shape := ⟨2, ![8192, 8192]⟩

/-- The squared norm of row `p`: the zero word plus the sum of the squares of its entries. -/
def sqNorm (x : Rows.Idx → EReal) (p : Fin 8192) : EReal :=
  Ideal.ofBits .f32 0x00000000#32 + ∑ k : Fin 768, x (ix2 p k) * x (ix2 p k)

/-- The inner product of row `p` of `x` with row `q` of `y`. -/
def inner (x y : Rows.Idx → EReal) (p q : Fin 8192) : EReal :=
  ∑ k : Fin 768, x (ix2 p k) * y (ix2 q k)

/-- The clamped squared distance of the pair `(p, q)`, from the two squared norms and the inner product. -/
def combine (nx ny xy : EReal) : EReal :=
  max ((nx + ny) - Ideal.ofBits .f32 0x40000000#32 * xy) (Ideal.ofBits .f32 0x00000000#32)

/-- The whole result: at the pair `i = (p, q)`, the clamped squared distance between row `p` of `x` and row `q` of `y`. -/
def sqDist (x y : Rows.Idx → EReal) : Pairs.Idx → EReal := fun i =>
  combine (sqNorm x (i 0)) (sqNorm y (i 1)) (inner x y (i 0) (i 1))

theorem sqDist_apply (x y : Rows.Idx → EReal) (p q : Fin 8192) :
    sqDist x y (ix2 p q) = combine (sqNorm x p) (sqNorm y q) (inner x y p q) := rfl

end Cert.SqDist

end
-- ==== Proof.RefResult.lean ====
/-
  The reference computes the clamped squared distance exactly as the specification arranges it: its two row sums of
  squares, broadcast along the rows and along the columns and added; twice its product of x with the transpose of y,
  contracted over the 768 entries of a row; the difference clamped at zero. Read one operation at a time at the pair
  (p, q), every layout operation only moves an index, so the result is the specification's term.
-/
import proofs.«142090_j75041668596339_1_alg».proof.Proof.Gen.ReferenceIdeal.Read
import proofs.«142090_j75041668596339_1_alg».proof.Proof.SqDist

noncomputable section

namespace Cert.SqDist.Ref

open Cert.ReferenceIdeal Cert.ReferenceIdeal.Read Idealize.ShloMosaic Idealize.ShloMosaic.ValueIdx

/-- The reference's result array is the specification of its two arguments. -/
theorem result_eq (x0 x1 : (⟨S8192x768, .f32⟩ : BufTy).Contents (Elt Ideal)) :
    val_main_v14 (F := Ideal) x0 x1 = sqDist x0 x1 := by
  funext i
  -- the row of x whose squared norm reaches the pair i is row i 0; the row of y is row i 1
  have ex : ∀ k : Fin 768, idx_main_v1 (idx_main_v2 (idx_main_v7 i)) k = ix2 (i 0) k := fun k =>
    funext fun a => Fin.ext (by match a with | ⟨0, _⟩ => rfl | ⟨1, _⟩ => rfl)
  have ey : ∀ k : Fin 768, idx_main_v4 (idx_main_v5 (idx_main_v8 i)) k = ix2 (i 1) k := fun k =>
    funext fun a => Fin.ext (by match a with | ⟨0, _⟩ => rfl | ⟨1, _⟩ => rfl)
  -- the product reads x at (i 0, k) and y at (i 1, k)
  have el : ∀ k : Fin 768, lidx_main_v6 i k = ix2 (i 0) k := fun k =>
    funext fun a => Fin.ext (by match a with | ⟨0, _⟩ => rfl | ⟨1, _⟩ => rfl)
  have er : ∀ k : Fin 768, ridx_main_v6 i k = ix2 (i 1) k := fun k =>
    funext fun a => Fin.ext (by match a with | ⟨0, _⟩ => rfl | ⟨1, _⟩ => rfl)
  rw [val_main_v14_apply, val_main_v12_apply, val_main_v9_apply, val_main_v11_apply, val_main_v7_apply,
    val_main_v2_apply, val_main_v1_apply, val_main_v8_apply, val_main_v5_apply, val_main_v4_apply,
    val_main_v6_apply, val_main_v10_apply, val_main_v13_apply, val_main_cst_1_apply, val_main_cst_2_apply,
    val_main_cst_apply, val_main_cst_0_apply]
  simp only [val_main_v0_apply, val_main_v3_apply, ex, ey, el, er]
  rfl

end Cert.SqDist.Ref

end
-- ==== Proof.TileBody.lean ====
/-
  What the kernel's body computes for one tile of 1024 × 1024 pairs, entry by entry.

  The body is given the 1024 rows of x and the 1024 rows of y the tile pairs up (both already in the narrow float
  format, which on the extended reals is the same number), the column of the 1024 squared norms of those rows of x and
  the row of the 1024 squared norms of those rows of y. It multiplies the two row blocks on the matrix unit, contracting
  the 768 entries of a row of x against the 768 entries of a row of y (both operands are contracted along their second
  axis), into a zero accumulator; at the pair (p, q) of the tile that is the inner product Σ_k x(p, k) · y(q, k). It then
  broadcasts the column along the tile's rows and the row along its columns, adds them, subtracts twice the product and
  clamps at zero: the specification's `combine` of the two norms and the inner product.
-/
import proofs.«142090_j75041668596339_1_alg».proof.Proof.Gen.KernelIdeal.Skeleton
import proofs.«142090_j75041668596339_1_alg».proof.Proof.SqDist
import Idealize.ShloMosaic.PureOps.Ideal.Laws
import Idealize.ShloMosaic.Lib.ValueIdx
import Idealize.ShloMosaic.Lib.Pipeline.Value

noncomputable section

namespace Cert.SqDist.Tile

open Cert.KernelIdeal Cert.KernelIdeal.Gen Idealize.ShloMosaic Idealize.ShloMosaic.ValueIdx

/-! ## The tile's product: both operands contracted along their second axis -/

/-- The left operand is read at the output's row, -/
theorem lhs_tile_0 (i : S1024x1024.Idx) (q : dot_S1024x768_S1024x768_S1024x1024_1_1_0_0_n_n.contr.Idx) :
    (dot_S1024x768_S1024x768_S1024x1024_1_1_0_0_n_n.lhsIdx i q 0).val = (i 0).val := by
  unfold DotDims.lhsIdx
  rw [dif_neg (show ¬(0 : Fin S1024x768.rank) ∈ dot_S1024x768_S1024x768_S1024x1024_1_1_0_0_n_n.lhsBatch by decide), dif_pos (show (0 : Fin S1024x768.rank) ∈ dot_S1024x768_S1024x768_S1024x1024_1_1_0_0_n_n.lhsNonContracting by decide)]
  rfl
/-- and at the contraction coordinate along its second axis. -/
theorem lhs_tile_1 (i : S1024x1024.Idx) (q : dot_S1024x768_S1024x768_S1024x1024_1_1_0_0_n_n.contr.Idx) :
    (dot_S1024x768_S1024x768_S1024x1024_1_1_0_0_n_n.lhsIdx i q 1).val = (q ⟨0, by decide⟩).val :=
  dot_S1024x768_S1024x768_S1024x1024_1_1_0_0_n_n.lhsIdx_val_of_single rfl i q
/-- The right operand is read at the output's COLUMN along its first axis (it enters the product transposed), -/
theorem rhs_tile_0 (i : S1024x1024.Idx) (q : dot_S1024x768_S1024x768_S1024x1024_1_1_0_0_n_n.contr.Idx) :
    (dot_S1024x768_S1024x768_S1024x1024_1_1_0_0_n_n.rhsIdx i q 0).val = (i 1).val := by
  unfold DotDims.rhsIdx
  rw [dif_neg (show ¬(0 : Fin S1024x768.rank) ∈ dot_S1024x768_S1024x768_S1024x1024_1_1_0_0_n_n.rhsBatch by decide), dif_pos (show (0 : Fin S1024x768.rank) ∈ dot_S1024x768_S1024x768_S1024x1024_1_1_0_0_n_n.rhsNonContracting by decide)]
  rfl
/-- and at the contraction coordinate along its second axis. -/
theorem rhs_tile_1 (i : S1024x1024.Idx) (q : dot_S1024x768_S1024x768_S1024x1024_1_1_0_0_n_n.contr.Idx) :
    (dot_S1024x768_S1024x768_S1024x1024_1_1_0_0_n_n.rhsIdx i q 1).val = (q ⟨0, by decide⟩).val :=
  dot_S1024x768_S1024x768_S1024x1024_1_1_0_0_n_n.rhsIdx_val_of_single rfl i q

/-- The tile's product into the zero accumulator, at the pair (p, q): the inner product of row p of the left block with
    row q of the right block. -/
theorem tile_product (l r : FVec Ideal S1024x768 .bf16) (p q : Fin 1024) :
    matmul dot_S1024x768_S1024x768_S1024x1024_1_1_0_0_n_n none l r (constant S1024x1024 .f32 0x00000000#32) (ix2 p q)
      = ∑ k : Fin 768, l (ix2 p k) * r (ix2 q k) := by
  simp only [matmul]
  rw [Ideal.matmul_constant_zero_apply, ← Equiv.sum_comp (contrEquiv1 dot_S1024x768_S1024x768_S1024x1024_1_1_0_0_n_n 768 rfl rfl).symm]
  refine Finset.sum_congr rfl fun k _ => ?_
  have hk := contrEquiv1_symm_val dot_S1024x768_S1024x768_S1024x1024_1_1_0_0_n_n 768 rfl rfl k
  have el : dot_S1024x768_S1024x768_S1024x1024_1_1_0_0_n_n.lhsIdx (ix2 p q) ((contrEquiv1 dot_S1024x768_S1024x768_S1024x1024_1_1_0_0_n_n 768 rfl rfl).symm k) = ix2 p k := funext fun a => Fin.ext (by
    match a with
    | ⟨0, _⟩ => exact lhs_tile_0 _ _
    | ⟨1, _⟩ => exact (lhs_tile_1 _ _).trans hk)
  have er : dot_S1024x768_S1024x768_S1024x1024_1_1_0_0_n_n.rhsIdx (ix2 p q) ((contrEquiv1 dot_S1024x768_S1024x768_S1024x1024_1_1_0_0_n_n 768 rfl rfl).symm k) = ix2 q k := funext fun a => Fin.ext (by
    match a with
    | ⟨0, _⟩ => exact rhs_tile_0 _ _
    | ⟨1, _⟩ => exact (rhs_tile_1 _ _).trans hk)
  rw [el, er]

/-! ## The two broadcasts -/

/-- A column of 1024 values broadcast along the tile's rows reads, at (p, q), the column's entry p. -/
theorem colBroadcast_apply (v : S1024x1.Idx → EReal) (h : S1024x1.Broadcasts S1024x1024) (p q : Fin 1024) :
    broadcastTo S1024x1024 v h (ix2 p q) = v (ix2 p (0 : Fin 1)) :=
  broadcastTo_apply v h (ix2 p q) (ix2 p (0 : Fin 1)) (fun a => by
    match a with
    | ⟨0, _⟩ => show p.val = if (1024 : Nat) = 1 then 0 else p.val; rw [if_neg (by decide)]
    | ⟨1, _⟩ => show (0 : Nat) = if (1 : Nat) = 1 then 0 else q.val; rw [if_pos rfl])

/-- A row of 1024 values broadcast along the tile's columns reads, at (p, q), the row's entry q. -/
theorem rowBroadcast_apply (v : S1x1024.Idx → EReal) (h : S1x1024.Broadcasts S1024x1024) (p q : Fin 1024) :
    broadcastTo S1024x1024 v h (ix2 p q) = v (ix2 (0 : Fin 1) q) :=
  broadcastTo_apply v h (ix2 p q) (ix2 (0 : Fin 1) q) (fun a => by
    match a with
    | ⟨0, _⟩ => show (0 : Nat) = if (1 : Nat) = 1 then 0 else p.val; rw [if_pos rfl]
    | ⟨1, _⟩ => show q.val = if (1024 : Nat) = 1 then 0 else q.val; rw [if_neg (by decide)])

/-! ## The body's stored value at a pair of the tile -/

/-- At the pair (p, q) of the tile the body stores `combine` of the column's entry p, the row's entry q and the inner
    product of row p of the first block with row q of the second. -/
theorem payload_apply (x0 x1 : Vec Ideal S1024x768 .bf16) (x2 : Vec Ideal S1024x1 .f32) (x3 : Vec Ideal S1x1024 .f32)
    (p q : Fin 1024) :
    k0_pay1 (F := Ideal) x0 x1 x2 x3 (ix2 p q)
      = combine (x2 (ix2 p (0 : Fin 1))) (x3 (ix2 (0 : Fin 1) q)) (∑ k : Fin 768, x0 (ix2 p k) * x1 (ix2 q k)) := by
  unfold k0_pay1
  simp only [shapeCast_self]
  rw [maximumf_apply, subf_apply, addf_apply, mulf_apply, broadcast_apply, broadcast_apply, colBroadcast_apply,
    rowBroadcast_apply, tile_product]
  rfl

end Cert.SqDist.Tile

end
-- ==== Proof.EntryArrays.lean ====
/-
  What the kernel's region finds in the four arrays its input windows stage. The host operations before the region
  compute them from the two arguments: x and y converted to the narrow float format (on the extended reals the same
  numbers), the column of the squared norms of x's rows and the row of the squared norms of y's rows (each a host sum of
  squares over a row, started from the zero word, then laid out as a column or as a row).
-/
import proofs.«142090_j75041668596339_1_alg».proof.Proof.Gen.KernelIdeal.Frame
import proofs.«142090_j75041668596339_1_alg».proof.Proof.SqDist
import Idealize.ShloMosaic.PureOps.Ideal.Laws
import Idealize.ShloMosaic.Lib.ValueIdx
import Idealize.ShloMosaic.Lib.Pipeline.Value
import Idealize.ShloMosaic.Lib.StableHlo.Run

noncomputable section

namespace Cert.SqDist.Entry

open Cert.KernelIdeal Cert.KernelIdeal.Gen Idealize.ShloMosaic Idealize.ShloMosaic.ValueIdx Idealize.ShloMosaic.TcCoe
open Idealize.SL.Sem Idealize.ShloMosaic.StableHlo

variable (m : (ℓ : Loc nD τ sig) → Buf (Elt Ideal) ℓ)

/-- The first argument as core `c` holds it at launch. -/
abbrev argX (c : Dev nD) : S8192x768.Idx → EReal := m ((c : Thread nD τ).loc main_arg0)
/-- The second argument as core `c` holds it at launch. -/
abbrev argY (c : Dev nD) : S8192x768.Idx → EReal := m ((c : Thread nD τ).loc main_arg1)

/-- A host sum of squares along a row, from the zero word, at row `P`: the specification's squared norm. -/
theorem rowSumSq_apply (X : S8192x768.Idx → EReal) (P : Fin 8192) :
    Host.reduceAdd (F := Ideal) (mulf X X) (constant S_ .f32 0x00000000#32) reducesTo_S8192x768_S8192_d1 h_S_ (ix1 P)
      = sqNorm X P := by
  simp only [Host.reduceAdd, Ideal.hostReduceAdd_def]
  rw [Ideal.hostReduceAdd_single reducesTo_S8192x768_S8192_d1 (by decide)]
  unfold sqNorm
  refine congrArg₂ (· + ·) rfl (Finset.sum_congr rfl fun k _ => ?_)
  have e : (show S8192x768.Reduces [1] S8192 by decide).lift (ix1 P) k = ix2 P k :=
    funext fun a => Fin.ext (by match a with | ⟨0, _⟩ => rfl | ⟨1, _⟩ => rfl)
  rw [e]
  rfl

/-- The narrow copy of x the first window stages holds x's numbers. -/
theorem narrowX_eq (c : Dev nD) : (V m c main_call0_v6 : S8192x768.Idx → EReal) = argX m c := by
  have e : @Eq (S8192x768.Idx → EReal) (V m c main_call0_v6) (truncf (F := Ideal) (s := S8192x768) (φ := .f32) .bf16 (argX m c) bitsLt_bf16_f32) := by
    dsimp only [V, hostOps0]; after_results; rfl
  rw [e]; rfl

/-- The narrow copy of y the second window stages holds y's numbers. -/
theorem narrowY_eq (c : Dev nD) : (V m c main_call0_v7 : S8192x768.Idx → EReal) = argY m c := by
  have e : @Eq (S8192x768.Idx → EReal) (V m c main_call0_v7) (truncf (F := Ideal) (s := S8192x768) (φ := .f32) .bf16 (argY m c) bitsLt_bf16_f32) := by
    dsimp only [V, hostOps0]; after_results; rfl
  rw [e]; rfl

/-- The column the third window stages holds, at row `P`, the squared norm of row `P` of x. -/
theorem normColumn_apply (c : Dev nD) (P : Fin 8192) :
    (V m c main_call0_v2 : S8192x1.Idx → EReal) (ix2 P (0 : Fin 1)) = sqNorm (argX m c) P := by
  have e : (V m c main_call0_v2 : S8192x1.Idx → EReal)
      = broadcastInDim S8192x1 ![0] bcast_S8192_S8192x1_0
          (Host.reduceAdd (F := Ideal) (mulf (argX m c) (argX m c)) (constant S_ .f32 0x00000000#32) reducesTo_S8192x768_S8192_d1 h_S_) := by
    dsimp only [V, hostOps0]; after_results; rfl
  rw [e, broadcastInDim_apply ![0] bcast_S8192_S8192x1_0 _ (ix2 P (0 : Fin 1)) (ix1 P) (fun a => by
    match a with
    | ⟨0, _⟩ => show P.val = if (8192 : Nat) = 1 then 0 else P.val; rw [if_neg (by decide)])]
  exact rowSumSq_apply (argX m c) P

/-- The row the fourth window stages holds, at column `Q`, the squared norm of row `Q` of y. -/
theorem normRow_apply (c : Dev nD) (Q : Fin 8192) :
    (V m c main_call0_v5 : S1x8192.Idx → EReal) (ix2 (0 : Fin 1) Q) = sqNorm (argY m c) Q := by
  have e : (V m c main_call0_v5 : S1x8192.Idx → EReal)
      = broadcastInDim S1x8192 ![1] bcast_S8192_S1x8192_1
          (Host.reduceAdd (F := Ideal) (mulf (argY m c) (argY m c)) (constant S_ .f32 0x00000000#32) reducesTo_S8192x768_S8192_d1 h_S_) := by
    dsimp only [V, hostOps0]; after_results; rfl
  rw [e, broadcastInDim_apply ![1] bcast_S8192_S1x8192_1 _ (ix2 (0 : Fin 1) Q) (ix1 Q) (fun a => by
    match a with
    | ⟨0, _⟩ => show Q.val = if (8192 : Nat) = 1 then 0 else Q.val; rw [if_neg (by decide)])]
  exact rowSumSq_apply (argY m c) Q

end Cert.SqDist.Entry

end
-- ==== Proof.WholeResult.lean ====
/-
  From tiles to the whole result. The grid has 8 × 8 points; point t = (a, b) is given rows 1024·a … 1024·a + 1023 of x
  (and their squared norms) and rows 1024·b … 1024·b + 1023 of y (and theirs), and writes back the 1024 × 1024 tile of
  the result at block (a, b). At the pair (p, q) of the tile the body stores `combine` of the norm of x's row
  1024·a + p, the norm of y's row 1024·b + q and their inner product: the specification at the pair
  (1024·a + p, 1024·b + q), which is where the tile's entry (p, q) lands. The 64 tiles cover the result, so after the
  run the result array is the specification of the two arguments.
-/
import proofs.«142090_j75041668596339_1_alg».proof.Proof.Gen.KernelIdeal.Value
import proofs.«142090_j75041668596339_1_alg».proof.Proof.TileBody
import proofs.«142090_j75041668596339_1_alg».proof.Proof.EntryArrays
import Idealize.ShloMosaic.Lib.Pipeline.Value

noncomputable section

namespace Cert.SqDist.Whole

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)
open Cert.SqDist.Entry Cert.SqDist.Tile

variable (m : (ℓ : Loc nD τ sig) → Buf (Elt Ideal) ℓ) (ρ : Dev nD → PrngReg)

theorem offsets_zero : (![0, 0] : Fin 2 → Nat) = fun _ => 0 := funext fun a => by fin_cases a <;> rfl

/-! ## One tile, over plain vectors -/

/-- If the four blocks the body is given are rows `1024·a + p` of x, rows `1024·b + q` of y and those rows' squared
    norms, then the body's stored value at the tile's pair `j = (p, q)` is the specification at the pair
    `i = (1024·a + p, 1024·b + q)`. -/
theorem tile_eq (X Y : S8192x768.Idx → EReal)
    (x0 x1 : Vec Ideal S1024x768 .bf16) (x2 : Vec Ideal S1024x1 .f32) (x3 : Vec Ideal S1x1024 .f32) (a b : Nat)
    (h0 : ∀ (p : Fin 1024) (k : Fin 768) (P : Fin 8192), P.val = a * 1024 + p.val → x0 (ix2 p k) = X (ix2 P k))
    (h1 : ∀ (q : Fin 1024) (k : Fin 768) (Q : Fin 8192), Q.val = b * 1024 + q.val → x1 (ix2 q k) = Y (ix2 Q k))
    (h2 : ∀ (p : Fin 1024) (P : Fin 8192), P.val = a * 1024 + p.val → x2 (ix2 p (0 : Fin 1)) = sqNorm X P)
    (h3 : ∀ (q : Fin 1024) (Q : Fin 8192), Q.val = b * 1024 + q.val → x3 (ix2 (0 : Fin 1) q) = sqNorm Y Q)
    (j : S1024x1024.Idx) (i : S8192x8192.Idx)
    (hi0 : (i 0).val = a * 1024 + (j 0).val) (hi1 : (i 1).val = b * 1024 + (j 1).val) :
    k0_pay1 (F := Ideal) x0 x1 x2 x3 j = sqDist X Y i := by
  obtain ⟨p, q, rfl⟩ : ∃ (p q : Fin 1024), j = ix2 p q := ⟨j 0, j 1, eq_ix2 j⟩
  obtain ⟨P, Q, rfl⟩ : ∃ (P Q : Fin 8192), i = ix2 P Q := ⟨i 0, i 1, eq_ix2 i⟩
  have hP : P.val = a * 1024 + p.val := hi0
  have hQ : Q.val = b * 1024 + q.val := hi1
  rw [payload_apply, sqDist_apply, h2 p P hP, h3 q Q hQ]
  refine congrArg (combine (sqNorm X P) (sqNorm Y Q)) (Finset.sum_congr rfl fun k _ => ?_)
  rw [h0 p k P hP, h1 q k Q hQ]

/-! ## The windows' index maps, decided over the 64 grid points -/

/-- The x block and its norms move with the result's block row, the y block and its norms with its block column; the
    result's block indices stay below 8. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every one of the 8 × 8 result blocks is some point's. -/
theorem idx_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## What a point writes back -/

/-- Point `t` writes back block `t` of the specification of the two arguments. -/
theorem flushed_eq (c : Dev nD) (t : Fin cfg0.N) :
    (dats m 0 c).flushed 4 t = ((cfg0.win 4).blk t).view.read (Elt Ideal) (sqDist (argX m c) (argY m c)) := by
  rw [flushed4]
  unfold out0_4
  rw [View.canon_unit_zero offsets_zero]
  simp only [View.ld_unit_zero (S := S1024x768) offsets_zero, View.ld_unit_zero (S := S1024x1) offsets_zero,
    View.ld_unit_zero (S := S1x1024) offsets_zero]
  obtain ⟨e00, e01, e10, e11, e20, e21, e30, e31, b0, b1⟩ := idx_facts t
  funext j
  show k0_pay1 (F := Ideal) (iblk m c 0 t) (iblk m c 1 t) (iblk m c 2 t) (iblk m c 3 t) j
      = sqDist (argX m c) (argY m c) (((cfg0.win 4).blk t).view.emb j)
  refine tile_eq (argX m c) (argY m c) (iblk m c 0 t) (iblk m c 1 t) (iblk m c 2 t) (iblk m c 3 t)
    (win0_4.index t (0 : Fin 2)) (win0_4.index t (1 : Fin 2)) ?_ ?_ ?_ ?_ j (((cfg0.win 4).blk t).view.emb j) ?_ ?_
  · intro p k P hP
    show V m c main_call0_v6 (((cfg0.win 0).blk t).view.emb (ix2 p k)) = argX m c (ix2 P k)
    rw [narrowX_eq]
    refine congrArg (argX m c) (funext fun d => Fin.ext ?_)
    match d with
    | ⟨0, _⟩ => show win0_0.index t (0 : Fin 2) * 1024 + 1 * p.val = P.val; omega
    | ⟨1, _⟩ => show win0_0.index t (1 : Fin 2) * 768 + 1 * k.val = k.val; omega
  · intro q k Q hQ
    show V m c main_call0_v7 (((cfg0.win 1).blk t).view.emb (ix2 q k)) = argY m c (ix2 Q k)
    rw [narrowY_eq]
    refine congrArg (argY m c) (funext fun d => Fin.ext ?_)
    match d with
    | ⟨0, _⟩ => show win0_1.index t (0 : Fin 2) * 1024 + 1 * q.val = Q.val; omega
    | ⟨1, _⟩ => show win0_1.index t (1 : Fin 2) * 768 + 1 * k.val = k.val; omega
  · intro p P hP
    show V m c main_call0_v2 (((cfg0.win 2).blk t).view.emb (ix2 p (0 : Fin 1))) = sqNorm (argX m c) P
    rw [← normColumn_apply m c P]
    refine congrArg (V m c main_call0_v2) (funext fun d => Fin.ext ?_)
    match d with
    | ⟨0, _⟩ => show win0_2.index t (0 : Fin 2) * 1024 + 1 * p.val = P.val; omega
    | ⟨1, _⟩ => show win0_2.index t (1 : Fin 2) * 1 + 1 * 0 = 0; omega
  · intro q Q hQ
    show V m c main_call0_v5 (((cfg0.win 3).blk t).view.emb (ix2 (0 : Fin 1) q)) = sqNorm (argY m c) Q
    rw [← normRow_apply m c Q]
    refine congrArg (V m c main_call0_v5) (funext fun d => Fin.ext ?_)
    match d with
    | ⟨0, _⟩ => show win0_3.index t (0 : Fin 2) * 1 + 1 * 0 = 0; omega
    | ⟨1, _⟩ => show win0_3.index t (1 : Fin 2) * 1024 + 1 * q.val = Q.val; omega
  · show win0_4.index t (0 : Fin 2) * 1024 + 1 * (j 0).val = win0_4.index t (0 : Fin 2) * 1024 + (j 0).val; omega
  · show win0_4.index t (1 : Fin 2) * 1024 + 1 * (j 1).val = win0_4.index t (1 : Fin 2) * 1024 + (j 1).val; omega

/-! ## The tiles cover the result -/

/-- A pair is in point `t`'s tile iff each coordinate is in the tile's range on its axis. -/
theorem mem_blk (t : Fin cfg0.N) (i : S8192x8192.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v0).slice (win0_4.rect t)).set ↔ _
  rw [View.set_slice_whole, Rect.mem_set_unit]
  exact Iff.rfl

/-- Every pair lies in the tile of the point whose block is (row / 1024, column / 1024). -/
theorem cover (i : S8192x8192.Idx) : ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-! ## The result array after the run -/

/-- After the run the result array is the specification of the two arguments. -/
theorem result_eq (c : Dev nD) : (dats m 0 c).arrAt 4 cfg0.N = sqDist (argX m c) (argY m c) :=
  (dats m 0 c).arrAt_eq_of_cover 4 (sqDist (argX m c) (argY m c)) (fun t _ => flushed_eq m c t) cover

/-- The kernel's run, read: it terminates with the result array at the specification and the arguments unchanged. -/
theorem run : θ_run defs (onTc (τ := τ) (main (F := Ideal))) ⟨m, fun _ => 0, ρ⟩ fun r => ∀ c : Dev nD,
      r.2.mem ((c : Thread nD τ).loc main_v0) = sqDist (argX m c) (argY m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (run_blocks m ρ)

end Cert.SqDist.Whole

end
-- ==== Proof.lean ====
/-
  The kernel computes, for every row x_p of x and every row y_q of y (8192 rows of 768 entries each), the clamped squared
  distance  max( (|x_p|² + |y_q|²) − 2 · ⟨x_p, y_q⟩ , 0 ).  It forms the two vectors of squared norms on the host,
  converts x and y to a narrow float format, and runs an 8 × 8 grid of tiles; each tile multiplies 1024 rows of x with
  1024 rows of y on the matrix unit and combines the product with the norms. The reference forms the same norms, one
  product of x with the transpose of y, and the same combination.

  On the extended reals a change of float format is the identity and a matrix product is the plain sum of products, so
  both programs compute the same arrangement of the same operations, pair by pair: no algebraic law and no finiteness
  of the inputs is needed. The pieces:
    * SqDist       the specification: squared norm, inner product, their combination, the whole result;
    * RefResult    the reference's result is the specification (one operation at a time, at an index);
    * TileBody     what the kernel's body stores at a pair of its tile;
    * EntryArrays  what the host operations before the region leave in the arrays the windows stage;
    * WholeResult  what a grid point writes back is its tile of the specification, the tiles cover the result, and so
                   the kernel's run ends with the result array at the specification.
  The three frames are the generated ones (the reference's is its generated run with the result dropped); the
  idealization rewrote no operation, so that claim is trivial.
-/
import proofs.«142090_j75041668596339_1_alg».proof.Defs
import proofs.«142090_j75041668596339_1_alg».proof.Proof.Gen.Kernel
import proofs.«142090_j75041668596339_1_alg».proof.Proof.Gen.Kernel.Skeleton
import proofs.«142090_j75041668596339_1_alg».proof.Proof.Gen.Kernel.Launch
import proofs.«142090_j75041668596339_1_alg».proof.Proof.Gen.Kernel.Points
import proofs.«142090_j75041668596339_1_alg».proof.Proof.Gen.Kernel.Frame
import proofs.«142090_j75041668596339_1_alg».proof.Proof.Gen.KernelIdeal
import proofs.«142090_j75041668596339_1_alg».proof.Proof.Gen.KernelIdeal.Skeleton
import proofs.«142090_j75041668596339_1_alg».proof.Proof.Gen.KernelIdeal.Launch
import proofs.«142090_j75041668596339_1_alg».proof.Proof.Gen.KernelIdeal.Points
import proofs.«142090_j75041668596339_1_alg».proof.Proof.Gen.KernelIdeal.Frame
import proofs.«142090_j75041668596339_1_alg».proof.Proof.Gen.ReferenceIdeal
import proofs.«142090_j75041668596339_1_alg».proof.Proof.Gen.Pre_finite_inputs
import proofs.«142090_j75041668596339_1_alg».proof.Proof.Gen.KernelIdeal.Value
import proofs.«142090_j75041668596339_1_alg».proof.Proof.Gen.ReferenceIdeal.Run
import proofs.«142090_j75041668596339_1_alg».proof.Proof.Gen.ReferenceIdeal.Read
import proofs.«142090_j75041668596339_1_alg».proof.Proof.RefResult
import proofs.«142090_j75041668596339_1_alg».proof.Proof.WholeResult
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on x and y both programs end with the result array at the clamped squared distances of
    the rows of x and the rows of y: the kernel tile by tile, the reference operation by operation. -/
theorem algebraic : Cert.algebraic_KernelIdeal_ReferenceIdeal := by
  intro m ρ m' ρ' _ hagree
  refine ⟨fun c => Cert.SqDist.sqDist (Cert.SqDist.Entry.argX m c) (Cert.SqDist.Entry.argY m c),
    Cert.SqDist.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.SqDist.Ref.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
